-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : IVec S1024x512 32) : IVec S_ 1 :=
  let main_c : IVec S_ 32 := constantI S_ 32 0#32
  let main_v0 : IVec S1024x512 32 := broadcastInDim S1024x512 ![] bcast_S_S1024x512 main_c
  let main_v1 : IVec S1024x512 1 := cmpi .sge main_arg0 main_v0
  let main_c_0 : IVec S_ 1 := constantI S_ 1 1#1
  let main_v2 : IVec S_ 1 := (fun x v => Host.reduce IntOp.andi x v reducesTo_S1024x512_S_d0_1 h_S_) main_v1 main_c_0
  main_v2
-- ==== Kernel.lean ====
abbrev S1024x512 : Shape := ⟨2, ![1024, 512]⟩
abbrev S1024x50256 : Shape := ⟨2, ![1024, 50256]⟩
abbrev S32x512 : Shape := ⟨2, ![32, 512]⟩
abbrev S32x50256 : Shape := ⟨2, ![32, 50256]⟩
abbrev S1x200x1 : Shape := ⟨3, ![1, 200, 1]⟩
abbrev S1x1x256 : Shape := ⟨3, ![1, 1, 256]⟩
abbrev S32x1x512 : Shape := ⟨3, ![32, 1, 512]⟩
abbrev S32x200x512 : Shape := ⟨3, ![32, 200, 512]⟩
abbrev S32x512x1 : Shape := ⟨3, ![32, 512, 1]⟩
abbrev S32x512x256 : Shape := ⟨3, ![32, 512, 256]⟩
abbrev S32x200x256 : Shape := ⟨3, ![32, 200, 256]⟩
abbrev S32x51200 : Shape := ⟨2, ![32, 51200]⟩

abbrev nBuf : Space → Nat
  | .hbm => 2
  | .vmem => 4
  | .smem => 0
  | _ => 0

abbrev bufTy : (tb : Table) → Fin (tcTables nBuf tb) → BufTy
  | .hbm, ⟨0, _⟩ => ⟨S1024x512, .i32⟩
  | .hbm, ⟨1, _⟩ => ⟨S1024x50256, .f32⟩
  | .local _ .vmem, ⟨0, _⟩ => ⟨S32x512, .i32⟩
  | .local _ .vmem, ⟨1, _⟩ => ⟨S32x512, .i32⟩
  | .local _ .vmem, ⟨2, _⟩ => ⟨S32x50256, .f32⟩
  | .local _ .vmem, ⟨3, _⟩ => ⟨S32x50256, .f32⟩
  | _, _ => ⟨S1024x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x50256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S32x512_S32x512_0_0 : ∀ a, (![0, 0] : Fin 2 → Nat) a + S32x512.size a ≤ S32x512.size a
  h_S32x512 : 0 < S32x512.numel
  iota_S1x200x1_d1_w32 : S1x200x1.Iotas .tc 32 [1]
  iota_S1x1x256_d2_w32 : S1x1x256.Iotas .tc 32 [2]
  shapeCasts_S32x512_S32x1x512 : S32x512.ShapeCasts S32x1x512
  broadcasts_S32x1x512_S32x200x512 : S32x1x512.Broadcasts S32x200x512
  broadcasts_S1x200x1_S32x200x512 : S1x200x1.Broadcasts S32x200x512
  natLt_1_32 : 1 < 32
  bitsLt_bf16_f32 : FTy.bits .bf16 < FTy.bits .f32
  shapeCasts_S32x512_S32x512x1 : S32x512.ShapeCasts S32x512x1
  broadcasts_S32x512x1_S32x512x256 : S32x512x1.Broadcasts S32x512x256
  broadcasts_S1x1x256_S32x512x256 : S1x1x256.Broadcasts S32x512x256
  shapeCasts_S32x200x256_S32x51200 : S32x200x256.ShapeCasts S32x51200
  slices_S32x51200_o0_0_S32x50256 : S32x51200.Slices ![0, 0] S32x50256
  inb_S32x50256_S32x50256_0_0 : ∀ a, (![0, 0] : Fin 2 → Nat) a + S32x50256.size a ≤ S32x50256.size a
  h_S32x50256 : 0 < S32x50256.numel
  dot_S32x200x512_S32x512x256_S32x200x256_2_1_1_2_0_0_wf : DotDims.WF S32x200x512 S32x512x256 S32x200x256 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x512.size a ≤ S1024x512.size a
  hwx0_0 : ∀ i : grid0.Coords, EltTy.bits .i32 = 32 ∨ (Rect.block (s := S1024x512) S32x512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x50256.size a ≤ S1024x50256.size a
  hwx0_1 : ∀ i : grid0.Coords, EltTy.bits .f32 = 32 ∨ (Rect.block (s := S1024x50256) S32x50256.size (cc0_transform_1 i) (hinb0_1 i)).WholeWords (EltTy.packing .f32)

variable [Facts₀]

def dot_S32x200x512_S32x512x256_S32x200x256_2_1_1_2_0_0 : DotDims S32x200x512 S32x512x256 S32x200x256 where
  lhsContracting := [2]
  rhsContracting := [1]
  lhsNonContracting := [1]
  rhsNonContracting := [2]
  lhsBatch := [0]
  rhsBatch := [0]
  wf := dot_S32x200x512_S32x512x256_S32x200x256_2_1_1_2_0_0_wf

abbrev win0_0 : Pipeline.Window sig grid0 :=
  Pipeline.Window.ofSpec (Memref.whole main_arg0) S32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x50256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1024x512 : Shape := ⟨2, ![1024, 512]⟩
abbrev S1024 : Shape := ⟨1, ![1024]⟩
abbrev S1024x1 : Shape := ⟨2, ![1024, 1]⟩
abbrev S_ : Shape := ⟨0, ![]⟩
abbrev S1024x50257 : Shape := ⟨2, ![1024, 50257]⟩
abbrev S1024x512x1 : Shape := ⟨3, ![1024, 512, 1]⟩
abbrev S1024x512x2 : Shape := ⟨3, ![1024, 512, 2]⟩
abbrev S1024x50256 : Shape := ⟨2, ![1024, 50256]⟩

abbrev nBuf : Space → Nat
  | .hbm => 27
  | .vmem => 0
  | .smem => 0
  | _ => 0

abbrev bufTy : (tb : Table) → Fin (tcTables nBuf tb) → BufTy
  | .hbm, ⟨0, _⟩ => ⟨S1024x512, .i32⟩
  | .hbm, ⟨1, _⟩ => ⟨S1024, .i32⟩
  | .hbm, ⟨2, _⟩ => ⟨S1024x1, .i32⟩
  | .hbm, ⟨3, _⟩ => ⟨S_, .f32⟩
  | .hbm, ⟨4, _⟩ => ⟨S1024x50257, .f32⟩
  | .hbm, ⟨5, _⟩ => ⟨S_, .i32⟩
  | .hbm, ⟨6, _⟩ => ⟨S1024x1, .i32⟩
  | .hbm, ⟨7, _⟩ => ⟨S1024x1, .i1⟩
  | .hbm, ⟨8, _⟩ => ⟨S_, .i32⟩
  | .hbm, ⟨9, _⟩ => ⟨S1024x1, .i32⟩
  | .hbm, ⟨10, _⟩ => ⟨S1024x1, .i32⟩
  | .hbm, ⟨11, _⟩ => ⟨S1024x1, .i32⟩
  | .hbm, ⟨12, _⟩ => ⟨S_, .i32⟩
  | .hbm, ⟨13, _⟩ => ⟨S1024x512, .i32⟩
  | .hbm, ⟨14, _⟩ => ⟨S1024x512, .i1⟩
  | .hbm, ⟨15, _⟩ => ⟨S_, .i32⟩
  | .hbm, ⟨16, _⟩ => ⟨S1024x512, .i32⟩
  | .hbm, ⟨17, _⟩ => ⟨S1024x512, .i32⟩
  | .hbm, ⟨18, _⟩ => ⟨S1024x512, .i32⟩
  | .hbm, ⟨19, _⟩ => ⟨S1024x512, .i32⟩
  | .hbm, ⟨20, _⟩ => ⟨S1024x512x1, .i32⟩
  | .hbm, ⟨21, _⟩ => ⟨S1024x512x1, .i32⟩
  | .hbm, ⟨22, _⟩ => ⟨S1024x512x2, .i32⟩
  | .hbm, ⟨23, _⟩ => ⟨S_, .f32⟩
  | .hbm, ⟨24, _⟩ => ⟨S1024x512, .f32⟩
  | .hbm, ⟨25, _⟩ => ⟨S1024x50257, .f32⟩
  | .hbm, ⟨26, _⟩ => ⟨S1024x50256, .f32⟩
  | _, _ => ⟨S1024x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_c_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  bcast_S1024_S1024x1_0 : S1024.BroadcastsInDim S1024x1 (![0] : Fin 1 → Fin S1024x1.rank)
  bcast_S_S1024x50257 : S_.BroadcastsInDim S1024x50257 (![] : Fin 0 → Fin S1024x50257.rank)
  bcast_S_S1024x1 : S_.BroadcastsInDim S1024x1 (![] : Fin 0 → Fin S1024x1.rank)
  bcast_S_S1024x512 : S_.BroadcastsInDim S1024x512 (![] : Fin 0 → Fin S1024x512.rank)
  bcast_S1024x1_S1024x512_0_1 : S1024x1.BroadcastsInDim S1024x512 (![0, 1] : Fin 2 → Fin S1024x512.rank)
  bcast_S1024x512_S1024x512x1_0_1 : S1024x512.BroadcastsInDim S1024x512x1 (![0, 1] : Fin 2 → Fin S1024x512x1.rank)
  concatenates_S1024x512x1_S1024x512x1_S1024x512x2_d2 : Shape.Concatenates [S1024x512x1, S1024x512x1] S1024x512x2 2
  slices_S1024x50257_S1024x50256_0_1 : S1024x50257.Slices ![0, 1] S1024x50256
  scatter_S1024x50257_S1024x512x2_S1024x512_n_01_01_2_wf : ScatterDims.WF S1024x50257 S1024x512x2 S1024x512 [] [0, 1] [0, 1] 2

variable [Facts₀]

def scatter_S1024x50257_S1024x512x2_S1024x512_n_01_01_2 : ScatterDims S1024x50257 S1024x512x2 S1024x512 where
  updateWindowDims := []
  insertedWindowDims := [0, 1]
  scatterDimsToOperandDims := [0, 1]
  indexVectorDim := 2
  wf := scatter_S1024x50257_S1024x512x2_S1024x512_n_01_01_2_wf

class Facts : Prop extends Facts₀ where

variable [Facts]
-- ==== Proof.Words.lean ====
/-
  The histogram both programs compute, and the facts about 32-bit words the two sides need.

  `hist x` at row `b` and column `c` is the number of positions `s` of row `b` whose token id is `c + 1`
  (column `c` counts token `c + 1`: token 0 is dropped), as an extended real: a sum of zeros and ones.

  The kernel never compares a token with `c + 1`. It takes `t - 1`, splits it into a high part `(t - 1) >> 8`
  (arithmetic shift) and a low part `(t - 1) & 255`, and matches the high part against `c / 256` and the low part
  against `c % 256`. For `c < 51200 = 200 · 256` the two matches hold together exactly when `t - 1 = c` as words
  (`shr_and_iff`: a word is its signed high part times 256 plus its low byte), that is when `t = c + 1`
  (`sub_one_iff`). The reference adds the vocabulary size to a negative id before it indexes; a non-negative id is
  left alone (`wrap_nonneg`).
-/
import Idealize.ShloMosaic.PureOps.Ideal
import Idealize.ShloMosaic.Lib.ValueIdx

noncomputable section

namespace Cert.Hist

open Idealize.ShloMosaic Idealize.ShloMosaic.ValueIdx

/-- The token histogram without token 0: entry `(b, c)` counts the positions of row `b` holding token `c + 1`. -/
def hist (x : IVec ⟨2, ![1024, 512]⟩ 32) : (⟨2, ![1024, 50256]⟩ : Shape).Idx → EReal :=
  fun i => ∑ s : Fin 512, if x (ix2 (i 0) s) = BitVec.ofNat 32 ((i 1).val + 1) then (1 : EReal) else 0

/-- A word's arithmetic shift by 8 is `c / 256` and its low byte is `c % 256` exactly when the word is `c`
    (for `c` below `2 ^ 31`; here below 51200): read signed, the word is `256 · high + low`. -/
theorem shr_and_iff (x : BitVec 32) (c : Nat) (hc : c < 51200) :
    (IntOp.shrsi .vector x 8#32 = BitVec.ofNat 32 (c / 256) ∧ IntOp.andi x 255#32 = BitVec.ofNat 32 (c % 256))
      ↔ x = BitVec.ofNat 32 c := by
  have hs : IntOp.shrsi .vector x 8#32 = x.sshiftRight 8 := by
    unfold IntOp.shrsi; rw [if_pos (by decide)]; rfl
  rw [hs]; unfold IntOp.andi
  have hx := x.isLt
  have hI := BitVec.toInt_eq_toNat_cond x
  have hand : (x &&& 255#32).toNat = x.toNat % 256 := by
    rw [BitVec.toNat_and]; exact Nat.and_two_pow_sub_one_eq_mod x.toNat 8
  have hshr : (x.sshiftRight 8).toInt = x.toInt / 256 := by
    rw [BitVec.toInt_sshiftRight, Int.shiftRight_eq_div_pow]; rfl
  constructor
  · rintro ⟨h1, h2⟩
    have e1 := congrArg BitVec.toInt h1
    have e2 := congrArg BitVec.toNat h2
    rw [hshr, BitVec.toInt_eq_toNat_cond (BitVec.ofNat 32 (c / 256)), BitVec.toNat_ofNat] at e1
    rw [hand, BitVec.toNat_ofNat] at e2
    apply BitVec.eq_of_toNat_eq
    rw [BitVec.toNat_ofNat]
    omega
  · intro h
    constructor
    · apply BitVec.eq_of_toInt_eq
      rw [hshr, BitVec.toInt_eq_toNat_cond (BitVec.ofNat 32 (c / 256)), BitVec.toNat_ofNat]
      have e := congrArg BitVec.toNat h
      rw [BitVec.toNat_ofNat] at e
      omega
    · apply BitVec.eq_of_toNat_eq
      rw [hand, BitVec.toNat_ofNat]
      have e := congrArg BitVec.toNat h
      rw [BitVec.toNat_ofNat] at e
      omega

/-- `t - 1 = c` as words exactly when `t = c + 1`. -/
theorem sub_one_iff (t : BitVec 32) (c : Nat) (hc : c < 51200) :
    IntOp.subi t 1#32 = BitVec.ofNat 32 c ↔ t = BitVec.ofNat 32 (c + 1) := by
  unfold IntOp.subi
  constructor
  · intro h
    have : t = BitVec.ofNat 32 c + 1#32 := by rw [← h]; exact (BitVec.sub_add_cancel t 1#32).symm
    rw [this]; apply BitVec.eq_of_toNat_eq; simp [BitVec.toNat_add, BitVec.toNat_ofNat]
  · intro h
    rw [h]; apply BitVec.eq_of_toNat_eq; simp [BitVec.toNat_sub, BitVec.toNat_ofNat]; omega

/-- The word is token `c + 1` exactly when its predecessor splits into bucket `c / 256` and lane `c % 256`. -/
theorem token_iff (t : BitVec 32) (c : Nat) (hc : c < 51200) :
    (IntOp.shrsi .vector (IntOp.subi t 1#32) 8#32 = BitVec.ofNat 32 (c / 256)
        ∧ IntOp.andi (IntOp.subi t 1#32) 255#32 = BitVec.ofNat 32 (c % 256))
      ↔ t = BitVec.ofNat 32 (c + 1) :=
  (shr_and_iff _ c hc).trans (sub_one_iff t c hc)

/-- A one-bit comparison widened to a word and converted to a float is the indicator of the equality. -/
theorem eq_bit_to_real (a b : BitVec 32) :
    ((((IntOp.cmpi .eq a b).setWidth 32).toInt : ℝ) : EReal) = if a = b then 1 else 0 := by
  unfold IntOp.cmpi
  by_cases h : a = b
  · subst h; simp [BitVec.ofBool]
  · have : (a == b) = false := by simpa using h
    simp [BitVec.ofBool, this, h]

/-- The product of two indicators is the indicator of the conjunction. -/
theorem ite_mul_ite (p q : Prop) [Decidable p] [Decidable q] :
    (if p then (1 : EReal) else 0) * (if q then 1 else 0) = if p ∧ q then 1 else 0 := by
  by_cases hp : p <;> by_cases hq : q <;> simp [hp, hq]

/-- Adding the axis size to a negative index and leaving the others alone leaves a non-negative word alone. -/
theorem wrap_nonneg (t n : BitVec 32) (h : 0 ≤ t.toInt) :
    Scalar.select (IntOp.cmpi .slt t 0#32) (IntOp.addi t n) t = t := by
  unfold Scalar.select IntOp.cmpi
  have hlt : ¬ t.toInt < 0 := by omega
  rw [if_neg]
  simp [BitVec.slt, BitVec.ofBool, hlt]

/-- A number below `2 ^ 31`, as a word read signed, is itself. -/
theorem toInt_ofNat_small (n : Nat) (hn : n < 2 ^ 31) : (BitVec.ofNat 32 n).toInt = (n : Int) := by
  rw [BitVec.toInt_eq_toNat_cond, BitVec.toNat_ofNat]
  have : n % 2 ^ 32 = n := Nat.mod_eq_of_lt (by omega)
  rw [this, if_pos (by omega)]

/-- A word read signed is the number `n < 2 ^ 31` exactly when it is the word of `n`. -/
theorem toInt_eq_iff (t : BitVec 32) (n : Nat) (hn : n < 2 ^ 31) : t.toInt = (n : Int) ↔ t = BitVec.ofNat 32 n := by
  constructor
  · intro h; apply BitVec.eq_of_toInt_eq; rw [h, toInt_ofNat_small n hn]
  · intro h; rw [h, toInt_ofNat_small n hn]

end Cert.Hist

end
-- ==== Proof.KernelBlock.lean ====
/-
  One grid point of the kernel: what its body stores, entry by entry.

  The body loads a block `v0` of 32 rows of 512 token ids and builds two arrays of zeros and ones: `hi` over
  (row, bucket, position), one where `(v0[row, position] - 1) >> 8` is the bucket number `0 … 199`, and `lo` over
  (row, position, lane), one where `(v0[row, position] - 1) & 255` is the lane number `0 … 255`. It multiplies them
  as a batch of 32 matrix products over the position axis into a zero accumulator, flattens (bucket, lane) to the
  column `256 · bucket + lane`, and keeps columns `0 … 50255`. At the ideal values a change of float format is the
  identity and the matrix product an exact sum, so entry `(r, c)` of the stored block is
      ∑ over positions s of  [hi(r, c / 256, s)] · [lo(r, s, c % 256)],
  a sum of indicators of `(t - 1) >> 8 = c / 256 ∧ (t - 1) & 255 = c % 256` with `t = v0[r, s]`: by `token_iff`
  the number of positions of row `r` holding token `c + 1` (`pay_apply`).

  The lemmas before it read each layout operation of the body at an index given by coordinates, over the body's
  literal shapes: the casts `[32,512] → [32,1,512]` and `[32,512] → [32,512,1]`, the four broadcasts into the two
  operand shapes, the cast `[32,200,256] → [32,51200]` (column `q = 256 j + l`), the slice of the first 50256 columns,
  and the operand indices of the batched product (batch axis 0, contracted axis the position).
-/
import proofs.«409661_j88115549045539_3_alg».proof.Proof.Gen.KernelIdeal.Skeleton
import proofs.«409661_j88115549045539_3_alg».proof.Proof.Words
import Idealize.ShloMosaic.Lib.Pipeline.Value
import Idealize.ShloMosaic.Lib.ValueIdx
import Idealize.ShloMosaic.PureOps.Ideal.Laws

noncomputable section

namespace Cert.Hist

open Idealize.ShloMosaic Idealize.ShloMosaic.ValueIdx Cert.KernelIdeal Cert.KernelIdeal.Gen

variable {α : Type}

/-- `[32,512]` viewed `[32,1,512]`: entry `(r, 0, s)` is entry `(r, s)`. -/
theorem cast_row (x : S32x512.Idx → α) (h : S32x512.ShapeCasts S32x1x512) (r : Fin 32) (u : Fin 1) (s : Fin 512) :
    shapeCast S32x1x512 x h (ix3 r u s) = x (ix2 r s) :=
  shapeCast_apply x h _ _ (by
    have hu : u.val = 0 := by omega
    rw [Shape.rowMajor_val_three, Shape.rowMajor_val_two]
    show r.val * 512 + s.val = (r.val * 1 + u.val) * 512 + s.val
    rw [hu]; omega)

/-- `[32,512]` viewed `[32,512,1]`: entry `(r, s, 0)` is entry `(r, s)`. -/
theorem cast_col (x : S32x512.Idx → α) (h : S32x512.ShapeCasts S32x512x1) (r : Fin 32) (s : Fin 512) (u : Fin 1) :
    shapeCast S32x512x1 x h (ix3 r s u) = x (ix2 r s) :=
  shapeCast_apply x h _ _ (by
    have hu : u.val = 0 := by omega
    rw [Shape.rowMajor_val_three, Shape.rowMajor_val_two]
    show r.val * 512 + s.val = (r.val * 512 + s.val) * 1 + u.val
    rw [hu]; omega)

/-- `[32,200,256]` viewed `[32,51200]`: column `q = 256 j + l` of row `r` is entry `(r, j, l)`. -/
theorem cast_merge (x : S32x200x256.Idx → α) (h : S32x200x256.ShapeCasts S32x51200) (r : Fin 32) (j : Fin 200) (l : Fin 256)
    (q : Fin 51200) (hq : q.val = j.val * 256 + l.val) :
    shapeCast S32x51200 x h (ix2 r q) = x (ix3 r j l) :=
  shapeCast_apply x h _ _ (by
    rw [Shape.rowMajor_val_three, Shape.rowMajor_val_two]
    show (r.val * 200 + j.val) * 256 + l.val = r.val * 51200 + q.val
    rw [hq]; omega)

/-- `[32,1,512]` repeated over the 200 buckets: entry `(r, j, s)` is entry `(r, 0, s)`. -/
theorem bcast_hi (x : S32x1x512.Idx → α) (h : S32x1x512.Broadcasts S32x200x512) (r : Fin 32) (j : Fin 200) (s : Fin 512) :
    broadcastTo S32x200x512 x h (ix3 r j s) = x (ix3 r 0 s) :=
  broadcastTo_apply x h _ _ fun a => match a with
    | ⟨0, _⟩ => by show r.val = if (32 : Nat) = 1 then 0 else r.val; rw [if_neg (by decide)]
    | ⟨1, _⟩ => by show 0 = if (1 : Nat) = 1 then 0 else j.val; rw [if_pos rfl]
    | ⟨2, _⟩ => by show s.val = if (512 : Nat) = 1 then 0 else s.val; rw [if_neg (by decide)]

/-- `[1,200,1]` repeated over rows and positions: entry `(r, j, s)` is entry `(0, j, 0)`. -/
theorem bcast_hi_iota (x : S1x200x1.Idx → α) (h : S1x200x1.Broadcasts S32x200x512) (r : Fin 32) (j : Fin 200) (s : Fin 512) :
    broadcastTo S32x200x512 x h (ix3 r j s) = x (ix3 0 j 0) :=
  broadcastTo_apply x h _ _ fun a => match a with
    | ⟨0, _⟩ => by show 0 = if (1 : Nat) = 1 then 0 else r.val; rw [if_pos rfl]
    | ⟨1, _⟩ => by show j.val = if (200 : Nat) = 1 then 0 else j.val; rw [if_neg (by decide)]
    | ⟨2, _⟩ => by show 0 = if (1 : Nat) = 1 then 0 else s.val; rw [if_pos rfl]

/-- `[32,512,1]` repeated over the 256 lanes: entry `(r, s, l)` is entry `(r, s, 0)`. -/
theorem bcast_lo (x : S32x512x1.Idx → α) (h : S32x512x1.Broadcasts S32x512x256) (r : Fin 32) (s : Fin 512) (l : Fin 256) :
    broadcastTo S32x512x256 x h (ix3 r s l) = x (ix3 r s 0) :=
  broadcastTo_apply x h _ _ fun a => match a with
    | ⟨0, _⟩ => by show r.val = if (32 : Nat) = 1 then 0 else r.val; rw [if_neg (by decide)]
    | ⟨1, _⟩ => by show s.val = if (512 : Nat) = 1 then 0 else s.val; rw [if_neg (by decide)]
    | ⟨2, _⟩ => by show 0 = if (1 : Nat) = 1 then 0 else l.val; rw [if_pos rfl]

/-- `[1,1,256]` repeated over rows and positions: entry `(r, s, l)` is entry `(0, 0, l)`. -/
theorem bcast_lo_iota (x : S1x1x256.Idx → α) (h : S1x1x256.Broadcasts S32x512x256) (r : Fin 32) (s : Fin 512) (l : Fin 256) :
    broadcastTo S32x512x256 x h (ix3 r s l) = x (ix3 0 0 l) :=
  broadcastTo_apply x h _ _ fun a => match a with
    | ⟨0, _⟩ => by show 0 = if (1 : Nat) = 1 then 0 else r.val; rw [if_pos rfl]
    | ⟨1, _⟩ => by show 0 = if (1 : Nat) = 1 then 0 else s.val; rw [if_pos rfl]
    | ⟨2, _⟩ => by show l.val = if (256 : Nat) = 1 then 0 else l.val; rw [if_neg (by decide)]

/-- The first 50256 of 51200 columns: entry `(r, c)` of the slice is entry `(r, c)` of the source. -/
theorem slice_cols (x : S32x51200.Idx → α) (h : S32x51200.Slices ![0, 0] S32x50256) (r : Fin 32) (c : Fin 50256) (q : Fin 51200)
    (hq : q.val = c.val) :
    extractStridedSlice S32x50256 ![0, 0] x h (ix2 r c) = x (ix2 r q) :=
  extractStridedSlice_apply _ x h _ _ fun a => match a with
    | ⟨0, _⟩ => by show r.val = 0 + r.val; omega
    | ⟨1, _⟩ => by show q.val = 0 + c.val; omega

/-- The batched product's dimension numbers: batch axis 0 of both operands, the left operand's axis 2 contracted with
    the right operand's axis 1 (the 512 positions). -/
abbrev D := dot_S32x200x512_S32x512x256_S32x200x256_2_1_1_2_0_0

/-- One axis is contracted, -/
theorem D_rank : D.contr.rank = 1 := rfl
/-- of extent 512. -/
theorem D_size : D.contr.size ⟨0, by rw [D_rank]; exact Nat.one_pos⟩ = 512 := rfl

/-- At result index `(r, j, l)` and position `s` the left operand is read at `(r, j, s)`, -/
theorem lhs_at (r : Fin 32) (j : Fin 200) (l : Fin 256) (s : Fin 512) :
    D.lhsIdx (ix3 r j l) ((contrEquiv1 D 512 D_rank D_size).symm s) = ix3 r j s := by
  funext a; apply Fin.ext
  match a with
  | ⟨0, _⟩ => rfl
  | ⟨1, _⟩ => rfl
  | ⟨2, _⟩ => rfl

/-- and the right operand at `(r, s, l)`. -/
theorem rhs_at (r : Fin 32) (j : Fin 200) (l : Fin 256) (s : Fin 512) :
    D.rhsIdx (ix3 r j l) ((contrEquiv1 D 512 D_rank D_size).symm s) = ix3 r s l := by
  funext a; apply Fin.ext
  match a with
  | ⟨0, _⟩ => rfl
  | ⟨1, _⟩ => rfl
  | ⟨2, _⟩ => rfl

/-- The "high" one-hot at (row, bucket, position): 1 where the position's word is the bucket number. -/
theorem hi_factor (w : IVec S32x512 32) (r : Fin 32) (j : Fin 200) (s : Fin 512) :
    (truncf .bf16 (sitofp (F := Ideal) .f32 (extui 32 (cmpi .eq
        (broadcastTo S32x200x512 (shapeCast S32x1x512 w Facts₀.shapeCasts_S32x512_S32x1x512) Facts₀.broadcasts_S32x1x512_S32x200x512)
        (broadcastTo S32x200x512 (iota .tc S1x200x1 32 [1] Facts₀.iota_S1x200x1_d1_w32) Facts₀.broadcasts_S1x200x1_S32x200x512))
        Facts₀.natLt_1_32)) Facts₀.bitsLt_bf16_f32 : FVec Ideal S32x200x512 .bf16) (ix3 r j s)
      = if w (ix2 r s) = BitVec.ofNat 32 j.val then 1 else 0 := by
  show ((((IntOp.cmpi .eq (broadcastTo S32x200x512 (shapeCast S32x1x512 w _) _ (ix3 r j s))
      (broadcastTo S32x200x512 (iota .tc S1x200x1 32 [1] _) _ (ix3 r j s))).setWidth 32).toInt : ℝ) : EReal) = _
  rw [bcast_hi, cast_row, bcast_hi_iota, iota_single_apply, eq_bit_to_real]

/-- The "low" one-hot at (row, position, lane): 1 where the position's word is the lane number. -/
theorem lo_factor (w : IVec S32x512 32) (r : Fin 32) (s : Fin 512) (l : Fin 256) :
    (truncf .bf16 (sitofp (F := Ideal) .f32 (extui 32 (cmpi .eq
        (broadcastTo S32x512x256 (shapeCast S32x512x1 w Facts₀.shapeCasts_S32x512_S32x512x1) Facts₀.broadcasts_S32x512x1_S32x512x256)
        (broadcastTo S32x512x256 (iota .tc S1x1x256 32 [2] Facts₀.iota_S1x1x256_d2_w32) Facts₀.broadcasts_S1x1x256_S32x512x256))
        Facts₀.natLt_1_32)) Facts₀.bitsLt_bf16_f32 : FVec Ideal S32x512x256 .bf16) (ix3 r s l)
      = if w (ix2 r s) = BitVec.ofNat 32 l.val then 1 else 0 := by
  show ((((IntOp.cmpi .eq (broadcastTo S32x512x256 (shapeCast S32x512x1 w _) _ (ix3 r s l))
      (broadcastTo S32x512x256 (iota .tc S1x1x256 32 [2] _) _ (ix3 r s l))).setWidth 32).toInt : ℝ) : EReal) = _
  rw [bcast_lo, cast_col, bcast_lo_iota, iota_single_apply, eq_bit_to_real]

/-- Entry `(r, c)` of the block one grid point stores: the number of positions of row `r` of its input block that
    hold token `c + 1`. -/
theorem pay_apply (v0 : Vec Ideal S32x512 .i32) (r : Fin 32) (c : Fin 50256) :
    k0_pay1 (F := Ideal) v0 (ix2 r c)
      = ∑ s : Fin 512, if v0 (ix2 r s) = BitVec.ofNat 32 (c.val + 1) then (1 : EReal) else 0 := by
  have hc : c.val < 50256 := c.isLt
  unfold k0_pay1
  refine (slice_cols _ _ r c ⟨c.val, by omega⟩ rfl).trans ?_
  refine (cast_merge _ _ r ⟨c.val / 256, by omega⟩ ⟨c.val % 256, Nat.mod_lt _ (by decide)⟩ _ (by show c.val = c.val / 256 * 256 + c.val % 256; omega)).trans ?_
  refine (Ideal.matmul_constant_zero_apply D none _ _ _).trans ?_
  rw [← Equiv.sum_comp (contrEquiv1 D 512 D_rank D_size).symm]
  refine Finset.sum_congr rfl fun s _ => ?_
  rw [lhs_at, rhs_at, hi_factor, lo_factor, ite_mul_ite]
  exact if_congr (token_iff (v0 (ix2 r s)) c.val (by omega)) rfl rfl

end Cert.Hist

end
-- ==== Proof.KernelArray.lean ====
/-
  From one grid point to the whole result array.

  The grid has 32 points. Point `t` is handed rows `32 t … 32 t + 31` of the `[1024, 512]` token array (all 512
  positions) and writes back rows `32 t … 32 t + 31` of the `[1024, 50256]` result (all columns). What it writes is,
  entry by entry, the number of positions of its row holding token `column + 1` (`pay_apply`), and a row of the block
  is a row of the array, so the block written back is block `t` of the histogram of the whole token array
  (`block_hist`, `flushed_eq`). The 32 row-blocks tile the result array (`cover`: row `i` belongs to point `i / 32`),
  so after the run the array is the histogram (`final`), the token array unchanged (`kernel_run`).
-/
import proofs.«409661_j88115549045539_3_alg».proof.Proof.Gen.KernelIdeal.Value
import proofs.«409661_j88115549045539_3_alg».proof.Proof.KernelBlock
import Idealize.ShloMosaic.Lib.Pipeline.Value

set_option maxRecDepth 16384

noncomputable section

namespace Cert.Hist

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- The body's one load and one store are at offsets zero: they take the whole staged block. -/
theorem zero_offsets : (![0, 0] : Fin 2 → Nat) = fun _ => 0 := funext fun a => by fin_cases a <;> rfl

/-- Grid point `t` takes row-block `t` of the token array and writes row-block `t` of the result, full width. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- A block of 32 rows that is rows `32 t … 32 t + 31` of `X` is stored as those rows of the histogram of `X`. -/
theorem block_hist (X : IVec S1024x512 32) (v0 : Vec Ideal S32x512 .i32) (t : Nat) (ht : t < 32)
    (hv : ∀ (r : Fin 32) (s : Fin 512), v0 (ix2 r s) = X (ix2 ⟨t * 32 + r.val, by have := r.isLt; omega⟩ s))
    (r : Fin 32) (q : Fin 50256) :
    k0_pay1 (F := Ideal) v0 (ix2 r q) = hist X (ix2 ⟨t * 32 + r.val, by have := r.isLt; omega⟩ q) := by
  rw [pay_apply]
  unfold hist
  exact Finset.sum_congr rfl fun s _ => by rw [hv]

/-- What grid point `t` writes back is block `t` of the histogram of the token array. -/
theorem flushed_eq (c : Dev nD) (t : Fin cfg0.N) :
    (dats m 0 c).flushed 1 t = ((cfg0.win 1).blk t).view.read (Elt Ideal) (hist (V m c main_arg0)) := by
  rw [Cert.KernelIdeal.Value.flushed1]
  unfold out0_1
  rw [View.canon_unit_zero zero_offsets]
  simp only [View.ld_unit_zero (S := S32x512) zero_offsets]
  obtain ⟨e0, e1, e2, e3⟩ := idx_facts t
  have ht : t.val < 32 := t.isLt
  funext y
  obtain ⟨r, q, rfl⟩ : ∃ (r : Fin 32) (q : Fin 50256), y = ix2 r q := ⟨y 0, y 1, eq_ix2 y⟩
  show k0_pay1 (F := Ideal) (iblk m c 0 t) (ix2 r q) = hist (V m c main_arg0) (((cfg0.win 1).blk t).view.emb (ix2 r q))
  refine (block_hist (V m c main_arg0) (iblk m c 0 t) t.val ht ?_ r q).trans ?_
  · intro r s
    show V m c main_arg0 (((cfg0.win 0).blk t).view.emb (ix2 r s)) = V m c main_arg0 _
    refine congrArg (V m c main_arg0) (funext fun a => Fin.ext ?_)
    match a with
    | ⟨0, _⟩ => show win0_0.index t (0 : Fin 2) * 32 + 1 * r.val = t.val * 32 + r.val; omega
    | ⟨1, _⟩ => show win0_0.index t (1 : Fin 2) * 512 + 1 * s.val = s.val; omega
  · refine congrArg (hist (V m c main_arg0)) (funext fun a => Fin.ext ?_)
    match a with
    | ⟨0, _⟩ => show t.val * 32 + r.val = win0_1.index t (0 : Fin 2) * 32 + 1 * r.val; omega
    | ⟨1, _⟩ => show q.val = win0_1.index t (1 : Fin 2) * 50256 + 1 * q.val; omega

/-- An index of the result array is in point `t`'s block iff each coordinate is in the block's range on its axis. -/
theorem mem_blk (t : Fin cfg0.N) (i : S1024x50256.Idx) :
    i ∈ ((cfg0.win 1).blk t).view.set ↔ ∀ a : Fin 2, win0_1.index t a * S32x50256.size a ≤ (i a).val ∧ (i a).val < win0_1.index t a * S32x50256.size a + S32x50256.size a := by
  show i ∈ ((View.whole main_v0).slice (win0_1.rect t)).set ↔ _
  rw [View.set_slice_whole, Rect.mem_set_unit]
  exact Iff.rfl

/-- Every index of the result array is in the block of the point that owns its row-block. -/
theorem cover (i : S1024x50256.Idx) : ∃ t : Fin cfg0.N, (cfg0.win 1).flush t = true ∧ i ∈ ((cfg0.win 1).blk t).view.set := by
  have hi0 : (i 0).val < 1024 := (i 0).isLt
  have hi1 : (i 1).val < 50256 := (i 1).isLt
  let t : Fin cfg0.N := ⟨(i 0).val / 32, by show (i 0).val / 32 < 32; omega⟩
  obtain ⟨e0, e1, e2, e3⟩ := idx_facts t
  have htv : t.val = (i 0).val / 32 := rfl
  refine ⟨t, flush0_1 t, ?_⟩
  rw [mem_blk]
  intro a
  match a with
  | ⟨0, _⟩ => show win0_1.index t (0 : Fin 2) * 32 ≤ (i 0).val ∧ (i 0).val < win0_1.index t (0 : Fin 2) * 32 + 32; omega
  | ⟨1, _⟩ => show win0_1.index t (1 : Fin 2) * 50256 ≤ (i 1).val ∧ (i 1).val < win0_1.index t (1 : Fin 2) * 50256 + 50256; omega

/-- The result array after the run is the histogram of the token array. -/
theorem final (c : Dev nD) : (dats m 0 c).arrAt 1 cfg0.N = hist (m ((c : Thread nD τ).loc main_arg0)) :=
  (dats m 0 c).arrAt_eq_of_cover 1 (hist (V m c main_arg0)) (fun t _ => flushed_eq m c t) cover

/-- The kernel's run: the result array ends at the histogram of the token array, which is unchanged. -/
theorem kernel_run : θ_run defs (onTc (τ := τ) (main (F := Ideal))) ⟨m, fun _ => 0, ρ⟩ fun r => ∀ c : Dev nD,
      r.2.mem ((c : Thread nD τ).loc main_v0) = hist (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Cert.KernelIdeal.Value.run_blocks m ρ)

end Cert.Hist

end
-- ==== Proof.RefValue.lean ====
/-
  The reference: a scatter-add of ones into a zero `[1024, 50257]` array, then columns `1 … 50256`.

  The index table has two components per (row, position): the row number and the token id, each passed through
  "add the axis size if negative". A row number `0 … 1023` is non-negative, and so is every token id under the
  precondition, so the table holds (row, id) as they are (`table_row`, `table_tok`). The host's accumulating scatter
  at the ideal values is, at operand index `i`, the operand there plus the sum of the updates whose result index is
  `i`; an update whose index leaves the operand is dropped. Here every axis of the operand is an inserted window
  axis, so an update's result index is its start index: update (b', s) lands on (b', id(b', s)) when `id < 50257`
  (`resultIdx?_eq_some_iff` with `start0`, `start1`, `window0`, `window1`). Reading the slice at `(b, c)` is reading
  the scatter at `(b, c + 1)`: the updates are all 1, so the value is the number of positions `s` of row `b` with
  `id(b, s) = c + 1`: the histogram (`ref_apply`, `ref_eq`).
-/
import proofs.«409661_j88115549045539_3_alg».proof.Proof.Gen.ReferenceIdeal.Read
import proofs.«409661_j88115549045539_3_alg».proof.Proof.Words
import Idealize.ShloMosaic.Lib.Pipeline.Value
import Idealize.ShloMosaic.Lib.ValueIdx
import Idealize.ShloMosaic.Lib.IdealHost
import Idealize.ShloMosaic.PureOps.Ideal.Laws

noncomputable section

namespace Cert.Hist

open Idealize.ShloMosaic Idealize.ShloMosaic.ValueIdx Cert.ReferenceIdeal Cert.ReferenceIdeal.Gen Cert.ReferenceIdeal.Read

/-- An update lands on operand index `i` exactly when, on every axis, its start plus its window coordinate is `i`'s
    coordinate (being a coordinate of the operand, that is in range). -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · next h =>
    constructor
    · intro e a
      have e' := congrFun (Option.some.inj e) a
      have := congrArg Fin.val e'
      have h0 := (h a).1
      simp only at this
      omega
    · intro e
      congr 1
      funext a
      apply Fin.ext
      have := e a
      show (d.start j idx a + (d.window j a : Int)).toNat = (i a).val
      omega
  · next h =>
    constructor
    · intro e; exact absurd e (by simp)
    · intro e
      exact absurd (fun a => by have := e a; have := (i a).isLt; constructor <;> omega) h

/-- The scatter's dimension numbers: no window axes in the updates, both operand axes inserted, table component `k`
    the start on operand axis `k`, the components along the table's last axis. -/
abbrev dS := scatter_S1024x50257_S1024x512x2_S1024x512_n_01_01_2

/-- The start on the row axis of the update at (b, s) is the table's component 0 there, read signed; -/
theorem start0 (b : Fin 1024) (s : Fin 512) (idx : IVec S1024x512x2 32) :
    dS.start (ix2 b s) idx 0 = (idx (ix3 b s 0)).toInt := by
  have e : dS.siIdx (ix2 b s) ⟨0, by decide⟩ = ix3 b s 0 := by
    funext a; apply Fin.ext
    match a with
    | ⟨0, _⟩ => rfl
    | ⟨1, _⟩ => rfl
    | ⟨2, _⟩ => rfl
  show (idx (dS.siIdx (ix2 b s) ⟨0, by decide⟩)).toInt = _
  rw [e]
/-- on the token axis, component 1. -/
theorem start1 (b : Fin 1024) (s : Fin 512) (idx : IVec S1024x512x2 32) :
    dS.start (ix2 b s) idx 1 = (idx (ix3 b s 1)).toInt := by
  have e : dS.siIdx (ix2 b s) ⟨1, by decide⟩ = ix3 b s 1 := by
    funext a; apply Fin.ext
    match a with
    | ⟨0, _⟩ => rfl
    | ⟨1, _⟩ => rfl
    | ⟨2, _⟩ => rfl
  show (idx (dS.siIdx (ix2 b s) ⟨1, by decide⟩)).toInt = _
  rw [e]
/-- Both operand axes are inserted window axes: the window coordinate is 0 on each. -/
theorem window0 (j : S1024x512.Idx) : dS.window j 0 = 0 := rfl
theorem window1 (j : S1024x512.Idx) : dS.window j 1 = 0 := rfl

/-- Component 0 of the index table at (row, position): the row's number. -/
theorem table_row (x0 : IVec S1024x512 32) (b : Fin 1024) (s : Fin 512) :
    val_main_v16 (F := Ideal) x0 (ix3 b s 0) = BitVec.ofNat 32 b.val := by
  unfold val_main_v16
  refine (concatenate_pair_apply_left (s₁ := S1024x512x1) (s₂ := S1024x512x1) 2 _ _ _ (ix3 b s (0 : Fin 2)) rfl (ix3 b s (0 : Fin 1))
    (fun a => match a with | ⟨0, _⟩ => rfl | ⟨1, _⟩ => rfl | ⟨2, _⟩ => rfl)).trans ?_
  rw [val_main_v14_apply, val_main_v13_apply, val_main_v7_apply, val_main_v4_apply, val_main_v6_apply, val_main_v1_apply,
    val_main_v0_apply, val_main_v3_apply, val_main_c_apply, val_main_v5_apply, val_main_c_0_apply]
  show Scalar.select (IntOp.cmpi .slt (BitVec.ofNat 32 b.val) 0#32) (IntOp.addi (BitVec.ofNat 32 b.val) 1024#32) (BitVec.ofNat 32 b.val) = _
  exact wrap_nonneg _ _ (by rw [toInt_ofNat_small _ (by have := b.isLt; omega)]; omega)

/-- Component 1 of the index table at (row, position): the token there, when it is non-negative. -/
theorem table_tok (x0 : IVec S1024x512 32) (hx : ∀ i, 0 ≤ (x0 i).toInt) (b : Fin 1024) (s : Fin 512) :
    val_main_v16 (F := Ideal) x0 (ix3 b s 1) = x0 (ix2 b s) := by
  unfold val_main_v16
  refine (concatenate_pair_apply_right (s₁ := S1024x512x1) (s₂ := S1024x512x1) 2 _ _ _ (ix3 b s (1 : Fin 2)) rfl rfl (ix3 b s (0 : Fin 1))
    (fun a => match a with | ⟨0, _⟩ => fun _ => rfl | ⟨1, _⟩ => fun _ => rfl | ⟨2, _⟩ => fun h => absurd rfl h) rfl).trans ?_
  rw [val_main_v15_apply, val_main_v12_apply, val_main_v9_apply, val_main_v11_apply, val_main_v8_apply, val_main_c_1_apply,
    val_main_v10_apply, val_main_c_2_apply]
  have e : idx_main_v15 (ix3 b s (0 : Fin 1)) = ix2 b s := by
    funext a; match a with | ⟨0, _⟩ => rfl | ⟨1, _⟩ => rfl
  rw [e]
  exact wrap_nonneg _ _ (hx _)

/-- The reference's result at `(b, c)`, for non-negative token ids: the zero array plus the sum of the updates (all 1)
    that land on `(b, c + 1)`. The update at (row b', position s) lands on (b', id) — window coordinates zero, the start
    its two table components read signed, the id in range or the update dropped —, so the sum is over the positions
    of row `b` holding token `c + 1`. -/
theorem ref_apply (x0 : IVec S1024x512 32) (hx : ∀ i, 0 ≤ (x0 i).toInt) (b : Fin 1024) (c : Fin 50256) :
    val_main_v19 (F := Ideal) x0 (ix2 b c)
      = ∑ s : Fin 512, if x0 (ix2 b s) = BitVec.ofNat 32 (c.val + 1) then (1 : EReal) else 0 := by
  have hc := c.isLt
  have e0 : ((idx_main_v19 (ix2 b c)) 0).val = b.val := rfl
  have e1 : ((idx_main_v19 (ix2 b c)) 1).val = 1 + c.val := rfl
  rw [val_main_v19_apply]
  unfold val_main_v18
  show Ideal.hostScatterAdd dS (val_main_v2 (F := Ideal)) (val_main_v16 (F := Ideal) x0) (val_main_v17 (F := Ideal))
    (idx_main_v19 (ix2 b c)) = _
  unfold Ideal.hostScatterAdd
  beta_reduce
  rw [val_main_v2_apply, val_main_cst_apply, Ideal.ofBits_def, Ideal.ofBits_zero_f32, zero_add, Finset.sum_filter, sum_idx2]
  rw [Finset.sum_eq_single b]
  · refine Finset.sum_congr rfl fun s _ => ?_
    rw [val_main_v17_apply, val_main_cst_3_apply, Ideal.ofBits_def, Ideal.ofBits_one_f32]
    refine if_congr ?_ rfl rfl
    rw [resultIdx?_eq_some_iff]
    constructor
    · intro h
      have h1 := h 1
      rw [start1, window1, table_tok x0 hx] at h1
      exact (toInt_eq_iff _ _ (by omega)).1 (by omega)
    · intro h a
      match a with
      | ⟨0, _⟩ =>
        show dS.start (ix2 b s) _ 0 + ((dS.window (ix2 b s) 0 : Nat) : Int) = ((b.val : Nat) : Int)
        rw [start0, window0, table_row, toInt_ofNat_small _ (by have := b.isLt; omega)]
        omega
      | ⟨1, _⟩ =>
        show dS.start (ix2 b s) _ 1 + ((dS.window (ix2 b s) 1 : Nat) : Int) = ((1 + c.val : Nat) : Int)
        rw [start1, window1, table_tok x0 hx, h, toInt_ofNat_small _ (by omega)]
        omega
  · intro b' _ hb'
    refine Finset.sum_eq_zero fun s _ => ?_
    rw [if_neg]
    rw [resultIdx?_eq_some_iff]
    intro h
    have h0 := h 0
    rw [start0, window0, table_row, toInt_ofNat_small _ (by have := b'.isLt; omega)] at h0
    exact hb' (Fin.ext (by omega))
  · intro h; exact absurd (Finset.mem_univ b) h

/-- For non-negative token ids the reference's result is the histogram. -/
theorem ref_eq (x0 : IVec S1024x512 32) (hx : ∀ i, 0 ≤ (x0 i).toInt) : val_main_v19 (F := Ideal) x0 = hist x0 := by
  funext i
  obtain ⟨b, c, rfl⟩ : ∃ (b : Fin 1024) (c : Fin 50256), i = ix2 b c := ⟨i 0, i 1, eq_ix2 i⟩
  exact ref_apply x0 hx b c

end Cert.Hist

end
-- ==== Proof.PreDecode.lean ====
/-
  The precondition read back: `jnp.all(inputs >= 0)` prints as an `and`-reduction over both axes of the signed
  comparison `inputs ≥ 0`; the reduction being 1 gives the comparison at every index, that is every token id
  non-negative as a signed word.
-/
import proofs.«409661_j88115549045539_3_alg».proof.Proof.Gen.Pre_any_inputs
import Idealize.ShloMosaic.Lib.ReduceAll
import Idealize.ShloMosaic.Lib.Affine
import Idealize.ShloMosaic.Lib.ValueIdx
import Idealize.ShloMosaic.PureOps.Ideal

noncomputable section

namespace Cert.Hist

open Idealize.ShloMosaic Idealize.ShloMosaic.ValueIdx

instance : Subsingleton Cert.Pre_any_inputs.S_.Idx := ⟨fun a b => funext fun d => d.elim0⟩

/-- The printed precondition, all ones, says every token id is non-negative read as a signed word. -/
theorem nonneg_of_pre (x : IVec Cert.Pre_any_inputs.S1024x512 32)
    (h : Cert.Pre_any_inputs.fn (F := Ideal) x = fun _ => 1#1) (i : Cert.Pre_any_inputs.S1024x512.Idx) :
    0 ≤ (x i).toInt := by
  have e := congrFun h ix0
  dsimp only [Cert.Pre_any_inputs.fn] at e
  have h2 : IntOp.cmpi .sge (x i) 0#32 = 1#1 := Host.reduce_andi_all _ _ _ _ _ e i
  rw [IntOp.cmpi_sge] at h2
  simpa using h2

end Cert.Hist

end
-- ==== Proof.lean ====
/-
  A token histogram two ways. The input is a `[1024, 512]` array of 32-bit token ids; the result is the
  `[1024, 50256]` array whose entry `(b, c)` is the number of positions of row `b` holding token `c + 1` (`Hist.hist`:
  the count of token 0 is dropped), under the precondition that every id is non-negative.

  The reference scatters a 1 to `(b, id)` for every position and drops column 0; an id of 50257 or more lands outside
  the array and is dropped, and a NEGATIVE id would first have 50257 added to it — which is why the precondition is
  there: the kernel has no such wrap (Proof/RefValue.lean, Proof/PreDecode.lean).

  The kernel, 32 rows at a time, writes `t - 1` as `256 · high + low`, builds the indicator arrays of
  `high = bucket` and `low = lane`, and multiplies them over the position axis on the matrix unit: entry
  `256 · bucket + lane` of a row is the number of positions with `t - 1 = 256 · bucket + lane`; the columns kept are
  `0 … 50255` (Proof/Words.lean, Proof/KernelBlock.lean, Proof/KernelArray.lean).

  Both are the same sum of zeros and ones over the positions of a row: no law of the extended reals beyond
  `1 · 1 = 1`, `1 · 0 = 0 · 1 = 0 · 0 = 0` is used, and nothing is rounded at the ideal values. The three frames are
  the generated ones (the reference's is its generated run with the result dropped); the idealization rewrote no
  operation, so `preserves` has nothing to state.
-/
import proofs.«409661_j88115549045539_3_alg».proof.Defs
import proofs.«409661_j88115549045539_3_alg».proof.Proof.Gen.Kernel
import proofs.«409661_j88115549045539_3_alg».proof.Proof.Gen.Kernel.Skeleton
import proofs.«409661_j88115549045539_3_alg».proof.Proof.Gen.Kernel.Launch
import proofs.«409661_j88115549045539_3_alg».proof.Proof.Gen.Kernel.Points
import proofs.«409661_j88115549045539_3_alg».proof.Proof.Gen.Kernel.Frame
import proofs.«409661_j88115549045539_3_alg».proof.Proof.Gen.KernelIdeal
import proofs.«409661_j88115549045539_3_alg».proof.Proof.Gen.KernelIdeal.Skeleton
import proofs.«409661_j88115549045539_3_alg».proof.Proof.Gen.KernelIdeal.Launch
import proofs.«409661_j88115549045539_3_alg».proof.Proof.Gen.KernelIdeal.Points
import proofs.«409661_j88115549045539_3_alg».proof.Proof.Gen.KernelIdeal.Frame
import proofs.«409661_j88115549045539_3_alg».proof.Proof.Gen.ReferenceIdeal
import proofs.«409661_j88115549045539_3_alg».proof.Proof.Gen.Pre_any_inputs
import proofs.«409661_j88115549045539_3_alg».proof.Proof.Gen.KernelIdeal.Value
import proofs.«409661_j88115549045539_3_alg».proof.Proof.Gen.ReferenceIdeal.Run
import proofs.«409661_j88115549045539_3_alg».proof.Proof.Gen.ReferenceIdeal.Read
import proofs.«409661_j88115549045539_3_alg».proof.Proof.KernelArray
import proofs.«409661_j88115549045539_3_alg».proof.Proof.RefValue
import proofs.«409661_j88115549045539_3_alg».proof.Proof.PreDecode
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the token array, both programs end with the histogram of that array: the kernel's
    result array by its run read block by block, the reference's by its run read one operation at a time, the
    token ids non-negative by the precondition. -/
theorem algebraic : Cert.algebraic_KernelIdeal_ReferenceIdeal := by
  intro m ρ m' ρ' hpre hagree
  refine ⟨fun c => Cert.Hist.hist (m ((c.tc : Thread Cert.KernelIdeal.nD Cert.KernelIdeal.τ).loc Cert.KernelIdeal.main_arg0)),
    Cert.Hist.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, hagree c]
  exact Cert.Hist.ref_eq _ (fun i => Cert.Hist.nonneg_of_pre _ (hpre c) i)

theorem claim : Cert.Claim := ⟨Cert.Kernel.Gen.facts, Cert.KernelIdeal.Gen.facts, Cert.ReferenceIdeal.Gen.facts, Cert.Pre_any_inputs.Gen.facts,
  frame_kernel, frame_kernel_ideal, frame_reference, trivial, algebraic⟩

end Cert.Proof

end
